-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S1000x8x512 : Shape := ⟨3, ![1000, 8, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S1000x8x512 : S_.BroadcastsInDim S1000x8x512 (![] : Fin 0 → Fin S1000x8x512.rank)
  reducesTo_S1000x8x512_S_d0_1_2 : S1000x8x512.ReducesTo [0, 1, 2] S_

variable [Facts]

def fn {F : FTy → Type} [FloatOps F] (main_arg0 : FVec F S8192x512 .f32) (main_arg1 : FVec F S1000x8x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S1000x8x512 .f32 := Host.absf main_arg1
  let main_cst_0 : FVec F S_ .f32 := constant S_ .f32 0x7F800000#32
  let main_v5 : FVec F S1000x8x512 .f32 := broadcastInDim S1000x8x512 ![] bcast_S_S1000x8x512 main_cst_0
  let main_v6 : IVec S1000x8x512 1 := cmpf .olt main_v4 main_v5
  let main_c_1 : IVec S_ 1 := constantI S_ 1 1#1
  let main_v7 : IVec S_ 1 := (fun x v => Host.reduce IntOp.andi x v reducesTo_S1000x8x512_S_d0_1_2 h_S_) main_v6 main_c_1
  let main_v8 : IVec S_ 1 := andi main_v3 main_v7
  main_v8
-- ==== Kernel.lean ====
abbrev S8192x512 : Shape := ⟨2, ![8192, 512]⟩
abbrev S1000x8x512 : Shape := ⟨3, ![1000, 8, 512]⟩
abbrev S8x1000x512 : Shape := ⟨3, ![8, 1000, 512]⟩
abbrev S8192x1000 : Shape := ⟨2, ![8192, 1000]⟩
abbrev S512x512 : Shape := ⟨2, ![512, 512]⟩
abbrev S512x1000 : Shape := ⟨2, ![512, 1000]⟩
abbrev S512 : Shape := ⟨1, ![512]⟩
abbrev S512x1 : Shape := ⟨2, ![512, 1]⟩
abbrev S1x1000x512 : Shape := ⟨3, ![1, 1000, 512]⟩
abbrev S1000x512 : Shape := ⟨2, ![1000, 512]⟩
abbrev S1000 : Shape := ⟨1, ![1000]⟩
abbrev S1x1000 : Shape := ⟨2, ![1, 1000]⟩

abbrev nBuf : Space → Nat
  | .hbm => 5
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S1000x8x512, .f32⟩
  | .hbm, ⟨2, _⟩ => ⟨S8x1000x512, .f32⟩
  | .hbm, ⟨3, _⟩ => ⟨S8192x1000, .f32⟩
  | .hbm, ⟨4, _⟩ => ⟨S8192x1000, .f32⟩
  | .local _ .vmem, ⟨0, _⟩ => ⟨S512x512, .f32⟩
  | .local _ .vmem, ⟨1, _⟩ => ⟨S512x512, .f32⟩
  | .local _ .vmem, ⟨2, _⟩ => ⟨S8x1000x512, .f32⟩
  | .local _ .vmem, ⟨3, _⟩ => ⟨S512x1000, .f32⟩
  | .local _ .vmem, ⟨4, _⟩ => ⟨S512x1000, .f32⟩
  | .local _ .vmem, ⟨5, _⟩ => ⟨S512x1000, .f32⟩
  | .local _ .vmem, ⟨6, _⟩ => ⟨S512x1000, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1000x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S1000x8x512_S8x1000x512_1_0_2 : S1000x8x512.Transposes [1, 0, 2] S8x1000x512
  inb_S512x512_S512x512_0_0 : ∀ a, (![0, 0] : Fin 2 → Nat) a + S512x512.size a ≤ S512x512.size a
  h_S512x512 : 0 < S512x512.numel
  reduces_S512x512_S512 : S512x512.Reduces [1] S512
  shapeCasts_S512_S512x1 : S512.ShapeCasts S512x1
  bitsLt_bf16_f32 : FTy.bits .bf16 < FTy.bits .f32
  inb_S8x1000x512_S1x1000x512_0_0_0 : ∀ a, (![0, 0, 0] : Fin 3 → Nat) a + S1x1000x512.size a ≤ S8x1000x512.size a
  h_S1x1000x512 : 0 < S1x1000x512.numel
  shapeCasts_S1x1000x512_S1000x512 : S1x1000x512.ShapeCasts S1000x512
  reduces_S1000x512_S1000 : S1000x512.Reduces [1] S1000
  shapeCasts_S1000_S1x1000 : S1000.ShapeCasts S1x1000
  broadcasts_S512x1_S512x1000 : S512x1.Broadcasts S512x1000
  broadcasts_S1x1000_S512x1000 : S1x1000.Broadcasts S512x1000
  inb_S8x1000x512_S1x1000x512_1_0_0 : ∀ a, (![1, 0, 0] : Fin 3 → Nat) a + S1x1000x512.size a ≤ S8x1000x512.size a
  inb_S8x1000x512_S1x1000x512_2_0_0 : ∀ a, (![2, 0, 0] : Fin 3 → Nat) a + S1x1000x512.size a ≤ S8x1000x512.size a
  inb_S8x1000x512_S1x1000x512_3_0_0 : ∀ a, (![3, 0, 0] : Fin 3 → Nat) a + S1x1000x512.size a ≤ S8x1000x512.size a
  inb_S8x1000x512_S1x1000x512_4_0_0 : ∀ a, (![4, 0, 0] : Fin 3 → Nat) a + S1x1000x512.size a ≤ S8x1000x512.size a
  inb_S8x1000x512_S1x1000x512_5_0_0 : ∀ a, (![5, 0, 0] : Fin 3 → Nat) a + S1x1000x512.size a ≤ S8x1000x512.size a
  inb_S8x1000x512_S1x1000x512_6_0_0 : ∀ a, (![6, 0, 0] : Fin 3 → Nat) a + S1x1000x512.size a ≤ S8x1000x512.size a
  inb_S8x1000x512_S1x1000x512_7_0_0 : ∀ a, (![7, 0, 0] : Fin 3 → Nat) a + S1x1000x512.size a ≤ S8x1000x512.size a
  inb_S512x1000_S512x1000_0_0 : ∀ a, (![0, 0] : Fin 2 → Nat) a + S512x1000.size a ≤ S512x1000.size a
  h_S512x1000 : 0 < S512x1000.numel
  dot_S512x512_S1000x512_S512x1000_1_1_0_0_n_n_wf : DotDims.WF S512x512 S1000x512 S512x1000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x512.size a
  hwx0_0 : ∀ i : grid0.Coords, EltTy.bits .f32 = 32 ∨ (Rect.block (s := S8192x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x1000x512.size a ≤ S8x1000x512.size a
  hwx0_1 : ∀ i : grid0.Coords, EltTy.bits .f32 = 32 ∨ (Rect.block (s := S8x1000x512) S8x1000x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1000.size a ≤ S8192x1000.size a
  hwx0_2 : ∀ i : grid0.Coords, EltTy.bits .f32 = 32 ∨ (Rect.block (s := S8192x1000) S512x1000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1000.size a ≤ S8192x1000.size a
  hwx0_3 : ∀ i : grid0.Coords, EltTy.bits .f32 = 32 ∨ (Rect.block (s := S8192x1000) S512x1000.size (cc0_transform_3 i) (hinb0_3 i)).WholeWords (EltTy.packing .f32)

variable [Facts₀]

def dot_S512x512_S1000x512_S512x1000_1_1_0_0_n_n : DotDims S512x512 S1000x512 S512x1000 where
  lhsContracting := [1]
  rhsContracting := [1]
  lhsNonContracting := [0]
  rhsNonContracting := [0]
  lhsBatch := []
  rhsBatch := []
  wf := dot_S512x512_S1000x512_S512x1000_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x1000x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S512x1000.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S512x1000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x512 : Shape := ⟨2, ![8192, 512]⟩
abbrev S1000x8x512 : Shape := ⟨3, ![1000, 8, 512]⟩
abbrev S_ : Shape := ⟨0, ![]⟩
abbrev S8192 : Shape := ⟨1, ![8192]⟩
abbrev S1000x8 : Shape := ⟨2, ![1000, 8]⟩
abbrev S8192x1000x8 : Shape := ⟨3, ![8192, 1000, 8]⟩
abbrev S8192x1x1 : Shape := ⟨3, ![8192, 1, 1]⟩
abbrev S1x1000x8 : Shape := ⟨3, ![1, 1000, 8]⟩
abbrev S8192x1000 : Shape := ⟨2, ![8192, 1000]⟩

abbrev nBuf : Space → Nat
  | .hbm => 21
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S1000x8x512, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S1000x8x512, .f32⟩
  | .hbm, ⟨6, _⟩ => ⟨S_, .f32⟩
  | .hbm, ⟨7, _⟩ => ⟨S1000x8, .f32⟩
  | .hbm, ⟨8, _⟩ => ⟨S8192x1000x8, .f32⟩
  | .hbm, ⟨9, _⟩ => ⟨S8192x1x1, .f32⟩
  | .hbm, ⟨10, _⟩ => ⟨S_, .f32⟩
  | .hbm, ⟨11, _⟩ => ⟨S8192x1000x8, .f32⟩
  | .hbm, ⟨12, _⟩ => ⟨S8192x1000x8, .f32⟩
  | .hbm, ⟨13, _⟩ => ⟨S8192x1000x8, .f32⟩
  | .hbm, ⟨14, _⟩ => ⟨S8192x1000x8, .f32⟩
  | .hbm, ⟨15, _⟩ => ⟨S1x1000x8, .f32⟩
  | .hbm, ⟨16, _⟩ => ⟨S8192x1000x8, .f32⟩
  | .hbm, ⟨17, _⟩ => ⟨S8192x1000x8, .f32⟩
  | .hbm, ⟨18, _⟩ => ⟨S_, .f32⟩
  | .hbm, ⟨19, _⟩ => ⟨S8192x1000, .f32⟩
  | .hbm, ⟨20, _⟩ => ⟨S8192x1000, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  reducesTo_S1000x8x512_S1000x8_d2 : S1000x8x512.ReducesTo [2] S1000x8
  bcast_S8192_S8192x1x1_0 : S8192.BroadcastsInDim S8192x1x1 (![0] : Fin 1 → Fin S8192x1x1.rank)
  bcast_S_S8192x1000x8 : S_.BroadcastsInDim S8192x1000x8 (![] : Fin 0 → Fin S8192x1000x8.rank)
  bcast_S8192x1x1_S8192x1000x8_0_1_2 : S8192x1x1.BroadcastsInDim S8192x1000x8 (![0, 1, 2] : Fin 3 → Fin S8192x1000x8.rank)
  bcast_S1000x8_S1x1000x8_1_2 : S1000x8.BroadcastsInDim S1x1000x8 (![1, 2] : Fin 2 → Fin S1x1000x8.rank)
  bcast_S1x1000x8_S8192x1000x8_0_1_2 : S1x1000x8.BroadcastsInDim S8192x1000x8 (![0, 1, 2] : Fin 3 → Fin S8192x1000x8.rank)
  reducesTo_S8192x1000x8_S8192x1000_d2 : S8192x1000x8.ReducesTo [2] S8192x1000
  dot_S8192x512_S1000x8x512_S8192x1000x8_1_2_0_01_n_n_wf : DotDims.WF S8192x512 S1000x8x512 S8192x1000x8 [1] [2] [0] [0, 1] [] []

variable [Facts₀]

def dot_S8192x512_S1000x8x512_S8192x1000x8_1_2_0_01_n_n : DotDims S8192x512 S1000x8x512 S8192x1000x8 where
  lhsContracting := [1]
  rhsContracting := [2]
  lhsNonContracting := [0]
  rhsNonContracting := [0, 1]
  lhsBatch := []
  rhsBatch := []
  wf := dot_S8192x512_S1000x8x512_S8192x1000x8_1_2_0_01_n_n_wf

class Facts : Prop extends Facts₀ where

variable [Facts]
-- ==== Proof.Spec.lean ====
/-
  The mathematics of the nearest-prototype distances, stated once over the whole argument arrays.

  For a latent row `b`, a class `c` and a prototype `p` the squared distance is expanded as
  `‖z_b‖² − 2·⟨z_b, μ_{c,p}⟩ + ‖μ_{c,p}‖²`, grouped as `(‖z_b‖² − 2·⟨z_b, μ_{c,p}⟩) + ‖μ_{c,p}‖²`
  (the grouping both programs use); the second result is its minimum over the eight prototypes,
  the first result the negated minimum.  Everything is over the extended reals; no law used below
  needs finiteness: only that `min` is the meet of a linear order.
-/
import Idealize.ShloMosaic.PureOps.Ideal
import Idealize.ShloMosaic.PureOps.Ideal.Laws
import Idealize.ShloMosaic.Lib.ValueIdx

noncomputable section

namespace Cert.NearestProto

open Idealize.ShloMosaic Idealize.ShloMosaic.ValueIdx

/-- The latent rows, the codebook `[class, prototype, feature]`, and the result `[row, class]`. -/
abbrev SZ : Shape := ⟨2, ![8192, 512]⟩
abbrev SMu : Shape := ⟨3, ![1000, 8, 512]⟩
abbrev SOut : Shape := ⟨2, ![8192, 1000]⟩

/-- The factor of the cross term: the f32 word of `2.0`, the same word in both programs, never evaluated. -/
def two : EReal := Ideal.ofBits .f32 0x40000000#32

/-- `‖z_b‖²`. -/
def sqZ (z : SZ.Idx → EReal) (b : Fin 8192) : EReal := ∑ d : Fin 512, z (ix2 b d) * z (ix2 b d)

/-- `‖μ_{c,p}‖²`. -/
def sqMu (mu : SMu.Idx → EReal) (c : Fin 1000) (p : Fin 8) : EReal := ∑ d : Fin 512, mu (ix3 c p d) * mu (ix3 c p d)

/-- `⟨z_b, μ_{c,p}⟩`. -/
def cross (z : SZ.Idx → EReal) (mu : SMu.Idx → EReal) (b : Fin 8192) (c : Fin 1000) (p : Fin 8) : EReal :=
  ∑ d : Fin 512, z (ix2 b d) * mu (ix3 c p d)

/-- The expanded squared distance of row `b` to prototype `p` of class `c`. -/
def dist (z : SZ.Idx → EReal) (mu : SMu.Idx → EReal) (b : Fin 8192) (c : Fin 1000) (p : Fin 8) : EReal :=
  (sqZ z b - two * cross z mu b c p) + sqMu mu c p

/-- The least of eight extended reals, associated to the left as a running minimum takes them. -/
def min8 (f : Fin 8 → EReal) : EReal :=
  min (min (min (min (min (min (min (f 0) (f 1)) (f 2)) (f 3)) (f 4)) (f 5)) (f 6)) (f 7)

/-- The minimum over the prototypes of a class: the second result. -/
def minDist (z : SZ.Idx → EReal) (mu : SMu.Idx → EReal) : SOut.Idx → EReal :=
  fun j => min8 fun p => dist z mu (j 0) (j 1) p

/-- Its negation: the first result. -/
def logits (z : SZ.Idx → EReal) (mu : SMu.Idx → EReal) : SOut.Idx → EReal :=
  fun j => -minDist z mu j

/-- A fold of `min` from `⊤` over the eight prototypes is the running minimum: both are the
    greatest lower bound of the eight values. -/
theorem fold_min_eq_min8 (f : Fin 8 → EReal) : (Finset.univ : Finset (Fin 8)).fold min ⊤ f = min8 f := by
  unfold min8
  have hle : ∀ k : Fin 8, (Finset.univ : Finset (Fin 8)).fold min ⊤ f ≤ f k := fun k =>
    (Finset.fold_min_le (f k)).2 (Or.inr ⟨k, Finset.mem_univ k, le_rfl⟩)
  apply le_antisymm
  · simp only [le_min_iff]
    exact ⟨⟨⟨⟨⟨⟨⟨hle 0, hle 1⟩, hle 2⟩, hle 3⟩, hle 4⟩, hle 5⟩, hle 6⟩, hle 7⟩
  · rw [Finset.le_fold_min]
    refine ⟨le_top, fun x _ => ?_⟩
    fin_cases x <;> simp [min_le_iff]

/-- `0 − x = −x` on the extended reals, with the zero spelt as the f32 zero word. -/
theorem zero_word_sub (x : EReal) : Ideal.ofBits .f32 0x00000000#32 - x = -x := by
  rw [Ideal.ofBits_zero_f32, zero_sub]

end Cert.NearestProto

end
-- ==== Proof.RefValue.lean ====
/-
  The reference's two results are the specification's functions of the argument arrays.

  Read one element at a time, the reference forms, at `(b, c, p)`, the row's squared norm (a host sum from the zero
  word), the cross term (a `dot_general` contracting the feature axis), their combination with the word of `2.0`,
  and the prototype's squared norm; then it folds `min` from the word of `+∞` over the prototype axis and negates.
-/
import proofs.«127688_j47845935677591_1_alg».proof.Proof.Gen.ReferenceIdeal.Read
import proofs.«127688_j47845935677591_1_alg».proof.Proof.Spec

noncomputable section

namespace Cert.NearestProto.Ref

open Cert.ReferenceIdeal Cert.ReferenceIdeal.Gen Cert.ReferenceIdeal.Read
open Idealize.ShloMosaic Idealize.ShloMosaic.ValueIdx Cert.NearestProto

variable (z : (⟨S8192x512, .f32⟩ : BufTy).Contents (Elt Ideal)) (mu : (⟨S1000x8x512, .f32⟩ : BufTy).Contents (Elt Ideal))

/-- The f32 word `0x7F800000` is `+∞`, the top of the extended reals. -/
theorem top_word : Ideal.ofBits .f32 0x7F800000#32 = ⊤ := by simp [Ideal.ofBits, Ideal.ieee]

/-! ### Where each stage reads its operand, by coordinates -/

theorem row_idx (b : Fin 8192) (c : Fin 1000) (p : Fin 8) (k : Fin 512) :
    idx_main_v1 (idx_main_v5 (idx_main_v8 (ix3 b c p))) k = ix2 b k :=
  funext fun a => Fin.ext (by match a with | ⟨0, _⟩ => rfl | ⟨1, _⟩ => rfl)

theorem lhs_idx (b : Fin 8192) (c : Fin 1000) (p : Fin 8) (k : Fin 512) :
    lidx_main_v4 (ix3 b c p) k = ix2 b k :=
  funext fun a => Fin.ext (by match a with | ⟨0, _⟩ => rfl | ⟨1, _⟩ => rfl)

theorem rhs_idx (b : Fin 8192) (c : Fin 1000) (p : Fin 8) (k : Fin 512) :
    ridx_main_v4 (ix3 b c p) k = ix3 c p k :=
  funext fun a => Fin.ext (by match a with | ⟨0, _⟩ => rfl | ⟨1, _⟩ => rfl | ⟨2, _⟩ => rfl)

theorem proto_idx (b : Fin 8192) (c : Fin 1000) (p : Fin 8) (k : Fin 512) :
    idx_main_v3 (idx_main_v10 (idx_main_v11 (ix3 b c p))) k = ix3 c p k :=
  funext fun a => Fin.ext (by match a with | ⟨0, _⟩ => rfl | ⟨1, _⟩ => rfl | ⟨2, _⟩ => rfl)

/-- The reference's `[B, C, P]` array of expanded distances at `(b, c, p)`. -/
theorem dist_at (b : Fin 8192) (c : Fin 1000) (p : Fin 8) :
    val_main_v12 (F := Ideal) z mu (ix3 b c p) = dist z mu b c p := by
  rw [val_main_v12_apply, val_main_v9_apply, val_main_v8_apply, val_main_v5_apply, val_main_v1_apply,
    val_main_v7_apply, val_main_v6_apply, val_main_v4_apply, val_main_v11_apply, val_main_v10_apply,
    val_main_v3_apply]
  simp only [val_main_v0_apply, val_main_v2_apply, val_main_cst_apply, val_main_cst_0_apply,
    val_main_cst_1_apply, row_idx, lhs_idx, rhs_idx, proto_idx, Ideal.addf_def, Ideal.subf_def,
    Ideal.mulf_def, Ideal.ofBits_def, Ideal.ofBits_zero_f32, zero_add]
  rfl

/-- The reference's minimum over the prototype axis is the specification's. -/
theorem minDist_eq : val_main_v13 (F := Ideal) z mu = minDist z mu := by
  funext j
  obtain ⟨b, c, rfl⟩ : ∃ (b : Fin 8192) (c : Fin 1000), j = ix2 b c := ⟨j 0, j 1, eq_ix2 j⟩
  have hR : Shape.Reduces S8192x1000x8 [2] S8192x1000 := by decide
  unfold val_main_v13
  rw [Host.reduce_eq_fold_single FloatOps.minimumf _ _ reducesTo_S8192x1000x8_S8192x1000_d2 hR h_S_]
  have hf : (val_main_v12 (F := Ideal) z mu ∘ hR.lift (ix2 b c)) = fun p : Fin 8 => dist z mu b c p :=
    funext fun (p : Fin 8) => by
      show val_main_v12 (F := Ideal) z mu (hR.lift (ix2 b c) p) = _
      rw [show hR.lift (ix2 b c) p = ix3 b c p from
        funext fun a => Fin.ext (by match a with | ⟨0, _⟩ => rfl | ⟨1, _⟩ => rfl | ⟨2, _⟩ => rfl), dist_at]
  show (Finset.univ : Finset (Fin 8)).fold min (Ideal.ofBits .f32 0x7F800000#32) _ = _
  rw [hf, top_word, fold_min_eq_min8]
  rfl

/-- The reference's negated minimum is the specification's first result. -/
theorem logits_eq : val_main_v14 (F := Ideal) z mu = logits z mu := by
  funext j
  rw [val_main_v14_apply, minDist_eq]
  rfl

end Cert.NearestProto.Ref

end
-- ==== Proof.KernelBlock.lean ====
/-
  What the kernel body leaves in its two output blocks, index by index.

  The body holds a block of 512 latent rows `x0` and the whole transposed codebook `x1 = [prototype, class, feature]`.
  For each of the eight prototype slabs it forms, over the block, `(‖row‖² − 2·(row · slabᵀ)) + ‖slab row‖²`
  (the products through a format change that is the identity on the extended reals, the matrix product into a zero
  accumulator), and keeps a running minimum.  Read at `(r, c)` each slab's term is the expanded distance of row `r`
  to prototype `p` of class `c`, so the block of the second result is their minimum and that of the first its negation.
-/
import proofs.«127688_j47845935677591_1_alg».proof.Proof.Gen.KernelIdeal.Frame
import proofs.«127688_j47845935677591_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.NearestProto.Kern

open Cert.KernelIdeal Cert.KernelIdeal.Gen Idealize.ShloMosaic Idealize.ShloMosaic.ValueIdx Cert.NearestProto

/-- The expanded distance over a row block and the transposed codebook: row `r` of the block against prototype
    `p` of class `c`. -/
def blockDist (x0 : Vec Ideal S512x512 .f32) (x1 : Vec Ideal S8x1000x512 .f32) (r : Fin 512) (c : Fin 1000)
    (p : Fin 8) : EReal :=
  ((∑ d : Fin 512, x0 (ix2 r d) * x0 (ix2 r d)) - two * ∑ d : Fin 512, x0 (ix2 r d) * x1 (ix3 p c d))
    + ∑ d : Fin 512, x1 (ix3 p c d) * x1 (ix3 p c d)

/-! ### The three ingredients at an index -/

/-- The column of row norms, broadcast along the classes: at `(r, c)` the sum of squares of row `r`. -/
theorem rowNorm_apply (x0 : Vec Ideal S512x512 .f32) (r : Fin 512) (c : Fin 1000) :
    broadcastTo S512x1000 (k0_pay1 (F := Ideal) x0) broadcasts_S512x1_S512x1000 (ix2 r c)
      = ∑ d : Fin 512, x0 (ix2 r d) * x0 (ix2 r d) := by
  refine (broadcastTo_apply _ _ (ix2 r c) (ix2 r (0 : Fin 1)) (fun a => ?_)).trans ?_
  · match a with
    | ⟨0, _⟩ => rfl
    | ⟨1, _⟩ => rfl
  unfold k0_pay1
  refine (shapeCast_apply _ _ (ix2 r (0 : Fin 1)) (ix1 r) (by
    rw [Shape.rowMajor_val_one, Shape.rowMajor_val_two]
    show r.val = r.val * 1 + 0
    omega)).trans ?_
  refine (Ideal.multiReduction_add_single _ _ reduces_S512x512_S512 _ _ (ix1 r)).trans ?_
  refine Finset.sum_congr rfl fun (d : Fin 512) _ => ?_
  rw [show reduces_S512x512_S512.lift (ix1 r) d = ix2 r d from
    funext fun a => Fin.ext (by match a with | ⟨0, _⟩ => rfl | ⟨1, _⟩ => rfl)]
  rfl

/-- The row of a slab's squared norms, broadcast down the rows: at `(r, c)` the sum of squares of the slab's row `c`. -/
theorem protoNorm_apply (v : Vec Ideal S1x1000x512 .f32) (r : Fin 512) (c : Fin 1000) :
    broadcastTo S512x1000 (shapeCast S1x1000 (multiReduction (F := Ideal) .add [1] S1000
        (mulf (shapeCast S1000x512 v shapeCasts_S1x1000x512_S1000x512) (shapeCast S1000x512 v shapeCasts_S1x1000x512_S1000x512))
        0x00000000#32 reduces_S1000x512_S1000 (.inl rfl) rfl) shapeCasts_S1000_S1x1000) broadcasts_S1x1000_S512x1000 (ix2 r c)
      = ∑ d : Fin 512, v (ix3 (0 : Fin 1) c d) * v (ix3 (0 : Fin 1) c d) := by
  refine (broadcastTo_1b_ab_apply _ _ r c).trans ?_
  refine (shapeCast_a_1a_apply _ _ (0 : Fin 1) c).trans ?_
  refine (Ideal.multiReduction_add_single _ _ reduces_S1000x512_S1000 _ _ (ix1 c)).trans ?_
  refine Finset.sum_congr rfl fun (d : Fin 512) _ => ?_
  rw [show reduces_S1000x512_S1000.lift (ix1 c) d = ix2 c d from
    funext fun a => Fin.ext (by match a with | ⟨0, _⟩ => rfl | ⟨1, _⟩ => rfl)]
  show shapeCast S1000x512 v _ (ix2 c d) * shapeCast S1000x512 v _ (ix2 c d) = _
  rw [shapeCast_1ab_ab_apply]

/-! The block product `row · slabᵀ`: both operands are contracted along their feature axis. -/

theorem lhs_axis0 (i : S512x1000.Idx) (q : dot_S512x512_S1000x512_S512x1000_1_1_0_0_n_n.contr.Idx) :
    (dot_S512x512_S1000x512_S512x1000_1_1_0_0_n_n.lhsIdx i q 0).val = (i 0).val := by
  unfold DotDims.lhsIdx
  rw [dif_neg (show ¬(0 : Fin S512x512.rank) ∈ dot_S512x512_S1000x512_S512x1000_1_1_0_0_n_n.lhsBatch by decide),
    dif_pos (show (0 : Fin S512x512.rank) ∈ dot_S512x512_S1000x512_S512x1000_1_1_0_0_n_n.lhsNonContracting by decide)]
  rfl
theorem lhs_axis1 (i : S512x1000.Idx) (q : dot_S512x512_S1000x512_S512x1000_1_1_0_0_n_n.contr.Idx) :
    (dot_S512x512_S1000x512_S512x1000_1_1_0_0_n_n.lhsIdx i q 1).val = (q ⟨0, by decide⟩).val :=
  dot_S512x512_S1000x512_S512x1000_1_1_0_0_n_n.lhsIdx_val_of_single rfl i q
theorem rhs_axis0 (i : S512x1000.Idx) (q : dot_S512x512_S1000x512_S512x1000_1_1_0_0_n_n.contr.Idx) :
    (dot_S512x512_S1000x512_S512x1000_1_1_0_0_n_n.rhsIdx i q 0).val = (i 1).val := by
  unfold DotDims.rhsIdx
  rw [dif_neg (show ¬(0 : Fin S1000x512.rank) ∈ dot_S512x512_S1000x512_S512x1000_1_1_0_0_n_n.rhsBatch by decide),
    dif_pos (show (0 : Fin S1000x512.rank) ∈ dot_S512x512_S1000x512_S512x1000_1_1_0_0_n_n.rhsNonContracting by decide)]
  rfl
theorem rhs_axis1 (i : S512x1000.Idx) (q : dot_S512x512_S1000x512_S512x1000_1_1_0_0_n_n.contr.Idx) :
    (dot_S512x512_S1000x512_S512x1000_1_1_0_0_n_n.rhsIdx i q 1).val = (q ⟨0, by decide⟩).val :=
  dot_S512x512_S1000x512_S512x1000_1_1_0_0_n_n.rhsIdx_val_of_single rfl i q

/-- The product into the zero accumulator at `(r, c)`: the sum over the features of row `r` of the left operand
    times row `c` of the right. -/
theorem cross_apply (L : FVec Ideal S512x512 .bf16) (R : FVec Ideal S1000x512 .bf16) (r : Fin 512) (c : Fin 1000) :
    matmul dot_S512x512_S1000x512_S512x1000_1_1_0_0_n_n none L R (constant (F := Ideal) S512x1000 .f32 0x00000000#32) (ix2 r c)
      = ∑ d : Fin 512, L (ix2 r d) * R (ix2 c d) := by
  simp only [matmul]
  rw [Ideal.matmul_constant_zero_apply,
    ← Equiv.sum_comp (contrEquiv1 dot_S512x512_S1000x512_S512x1000_1_1_0_0_n_n 512 rfl rfl).symm]
  refine Finset.sum_congr rfl fun k _ => ?_
  have hk := contrEquiv1_symm_val dot_S512x512_S1000x512_S512x1000_1_1_0_0_n_n 512 rfl rfl k
  have el : dot_S512x512_S1000x512_S512x1000_1_1_0_0_n_n.lhsIdx (ix2 r c)
      ((contrEquiv1 dot_S512x512_S1000x512_S512x1000_1_1_0_0_n_n 512 rfl rfl).symm k) = ix2 r k :=
    funext fun a => Fin.ext (by
      match a with
      | ⟨0, _⟩ => exact lhs_axis0 _ _
      | ⟨1, _⟩ => exact (lhs_axis1 _ _).trans hk)
  have er : dot_S512x512_S1000x512_S512x1000_1_1_0_0_n_n.rhsIdx (ix2 r c)
      ((contrEquiv1 dot_S512x512_S1000x512_S512x1000_1_1_0_0_n_n 512 rfl rfl).symm k) = ix2 c k :=
    funext fun a => Fin.ext (by
      match a with
      | ⟨0, _⟩ => exact rhs_axis0 _ _
      | ⟨1, _⟩ => exact (rhs_axis1 _ _).trans hk)
  rw [el, er]

/-! ### One prototype slab's term, and the body's running minimum -/

variable {F : FTy → Type} [FloatOps F]

/-- The term the body forms for one prototype slab `v` (a `[1, class, feature]` load) over the row block `x0`. -/
def slabTerm (x0 : Vec F S512x512 .f32) (v : Vec F S1x1000x512 .f32) : FVec F S512x1000 .f32 :=
  addf
    (subf (broadcastTo S512x1000 (k0_pay1 x0) broadcasts_S512x1_S512x1000)
      (mulf (broadcast S512x1000 (Scalar.ofBits .f32 0x40000000#32))
        (matmul dot_S512x512_S1000x512_S512x1000_1_1_0_0_n_n none (k0_pay2 x0)
          (truncf .bf16 (shapeCast S1000x512 v shapeCasts_S1x1000x512_S1000x512) bitsLt_bf16_f32)
          (constant S512x1000 .f32 0x00000000#32))))
    (broadcastTo S512x1000 (shapeCast S1x1000 (multiReduction .add [1] S1000
        (mulf (shapeCast S1000x512 v shapeCasts_S1x1000x512_S1000x512) (shapeCast S1000x512 v shapeCasts_S1x1000x512_S1000x512))
        0x00000000#32 reduces_S1000x512_S1000 (.inl rfl) rfl) shapeCasts_S1000_S1x1000) broadcasts_S1x1000_S512x1000)

/-- The body's last minimum is the running minimum of the eight slab terms, in slab order. -/
theorem runningMin_eq (x0 : Vec F S512x512 .f32) (v0 v1 v2 v3 v4 v5 v6 v7 : Vec F S1x1000x512 .f32) :
    k0_pay11 (k0_pay1 x0) (k0_pay2 x0)
        (k0_pay7 (k0_pay1 x0) (k0_pay2 x0) (k0_pay3 x0 v0 v1) (k0_pay5 v2) (k0_pay6 x0 v2) v3 v4)
        (k0_pay9 v5) (k0_pay10 (k0_pay2 x0) v5) v6 v7
      = minimumf (minimumf (minimumf (minimumf (minimumf (minimumf (minimumf
          (slabTerm x0 v0) (slabTerm x0 v1)) (slabTerm x0 v2)) (slabTerm x0 v3)) (slabTerm x0 v4))
          (slabTerm x0 v5)) (slabTerm x0 v6)) (slabTerm x0 v7) := rfl

/-- A slab term at `(r, c)`, for a slab that is prototype `p` of the transposed codebook. -/
theorem slabTerm_apply (x0 : Vec Ideal S512x512 .f32) (x1 : Vec Ideal S8x1000x512 .f32) (v : Vec Ideal S1x1000x512 .f32)
    (p : Fin 8) (hv : ∀ (c : Fin 1000) (d : Fin 512), v (ix3 (0 : Fin 1) c d) = x1 (ix3 p c d)) (r : Fin 512) (c : Fin 1000) :
    slabTerm x0 v (ix2 r c) = blockDist x0 x1 r c p := by
  unfold slabTerm blockDist
  rw [addf_apply, subf_apply, mulf_apply, broadcast_apply, rowNorm_apply, protoNorm_apply, cross_apply]
  have hc : ∀ d : Fin 512, k0_pay2 x0 (ix2 r d)
      * truncf .bf16 (shapeCast S1000x512 v shapeCasts_S1x1000x512_S1000x512) bitsLt_bf16_f32 (ix2 c d)
      = x0 (ix2 r d) * x1 (ix3 p c d) := fun d => by
    show x0 (ix2 r d) * shapeCast S1000x512 v shapeCasts_S1x1000x512_S1000x512 (ix2 c d) = _
    rw [shapeCast_1ab_ab_apply, hv]
  simp only [hc, hv]
  rfl

/-! ### The two output blocks -/

theorem zero_off2 : (![0, 0] : Fin 2 → Nat) = fun _ => 0 := funext fun a => by fin_cases a <;> rfl

/-- A load of the `[1, class, feature]` rectangle at offsets `(p, 0, 0)` of the transposed codebook is its slab `p`. -/
theorem slab_apply (x1 : Vec Ideal S8x1000x512 .f32) (off : Fin 3 → Nat)
    (inb : ∀ a, off a + S1x1000x512.size a ≤ S8x1000x512.size a) (p : Fin 8)
    (h0 : off 0 = p.val) (h1 : off 1 = 0) (h2 : off 2 = 0) (c : Fin 1000) (d : Fin 512) :
    View.ld x1 (Rect.unit (s := S8x1000x512) off S1x1000x512.size inb) (ix3 (0 : Fin 1) c d) = x1 (ix3 p c d) := by
  show x1 ((Rect.unit (s := S8x1000x512) off S1x1000x512.size inb).emb (ix3 (0 : Fin 1) c d)) = _
  congr 1
  funext a
  apply Fin.ext
  rw [Rect.emb_apply, Rect.off_unit, Rect.stride_unit]
  match a with
  | ⟨0, _⟩ => show off 0 + 1 * 0 = p.val; omega
  | ⟨1, _⟩ => show off 1 + 1 * c.val = c.val; omega
  | ⟨2, _⟩ => show off 2 + 1 * d.val = d.val; omega

/-- The body's running minimum over the eight slabs it loads, at `(r, c)`: the least expanded distance of row `r`
    to the prototypes of class `c`. -/
theorem runningMin_apply (x0 : Vec Ideal S512x512 .f32) (x1 : Vec Ideal S8x1000x512 .f32) (r : Fin 512) (c : Fin 1000) :
    k0_pay11 (k0_pay1 x0) (k0_pay2 x0)
        (k0_pay7 (k0_pay1 x0) (k0_pay2 x0) (k0_pay3 x0 (View.ld x1 r0_1) (View.ld x1 r0_2)) (k0_pay5 (View.ld x1 r0_3))
          (k0_pay6 x0 (View.ld x1 r0_3)) (View.ld x1 r0_4) (View.ld x1 r0_5))
        (k0_pay9 (View.ld x1 r0_6)) (k0_pay10 (k0_pay2 x0) (View.ld x1 r0_6)) (View.ld x1 r0_7) (View.ld x1 r0_8) (ix2 r c)
      = min8 (blockDist x0 x1 r c) := by
  refine (congrFun (runningMin_eq x0 (View.ld x1 r0_1) (View.ld x1 r0_2) (View.ld x1 r0_3) (View.ld x1 r0_4)
    (View.ld x1 r0_5) (View.ld x1 r0_6) (View.ld x1 r0_7) (View.ld x1 r0_8)) (ix2 r c)).trans ?_
  simp only [minimumf_apply]
  rw [slabTerm_apply x0 x1 _ 0 (slab_apply x1 _ _ 0 rfl rfl rfl) r c,
    slabTerm_apply x0 x1 _ 1 (slab_apply x1 _ _ 1 rfl rfl rfl) r c,
    slabTerm_apply x0 x1 _ 2 (slab_apply x1 _ _ 2 rfl rfl rfl) r c,
    slabTerm_apply x0 x1 _ 3 (slab_apply x1 _ _ 3 rfl rfl rfl) r c,
    slabTerm_apply x0 x1 _ 4 (slab_apply x1 _ _ 4 rfl rfl rfl) r c,
    slabTerm_apply x0 x1 _ 5 (slab_apply x1 _ _ 5 rfl rfl rfl) r c,
    slabTerm_apply x0 x1 _ 6 (slab_apply x1 _ _ 6 rfl rfl rfl) r c,
    slabTerm_apply x0 x1 _ 7 (slab_apply x1 _ _ 7 rfl rfl rfl) r c]
  rfl

/-- The block of the second result at `(r, c)`. -/
theorem minBlock_apply (x0 : Vec Ideal S512x512 .f32) (x1 : Vec Ideal S8x1000x512 .f32) (r : Fin 512) (c : Fin 1000) :
    out0_3 x0 x1 (ix2 r c) = min8 (blockDist x0 x1 r c) := by
  unfold out0_3
  rw [View.canon_unit_zero zero_off2, View.ld_unit_zero (S := S512x512) zero_off2]
  exact runningMin_apply x0 x1 r c

/-- The block of the first result at `(r, c)`: zero minus the minimum, that is its negation. -/
theorem logitBlock_apply (x0 : Vec Ideal S512x512 .f32) (x1 : Vec Ideal S8x1000x512 .f32) (r : Fin 512) (c : Fin 1000) :
    out0_2 x0 x1 (ix2 r c) = -min8 (blockDist x0 x1 r c) := by
  unfold out0_2
  rw [View.canon_unit_zero zero_off2, View.ld_unit_zero (S := S512x512) zero_off2]
  unfold k0_pay12
  refine Eq.trans ?_ (zero_word_sub _)
  exact congrArg (Ideal.ofBits .f32 0x00000000#32 - ·) (runningMin_apply x0 x1 r c)

end Cert.NearestProto.Kern

end
-- ==== Proof.ArrayValue.lean ====
/-
  From blocks to the whole result arrays.

  Grid point `t` stages rows `512·t … 512·t+511` of the latents and the whole transposed codebook (the host
  transposes `[class, prototype, feature]` to `[prototype, class, feature]` before the launch), and writes back rows
  `512·t … 512·t+511` of both results.  So what point `t` writes back is block `t` of the specification's functions of
  the argument arrays, the sixteen blocks tile the results, and each result array ends as that function.
-/
import proofs.«127688_j47845935677591_1_alg».proof.Proof.Gen.KernelIdeal.Value
import proofs.«127688_j47845935677591_1_alg».proof.Proof.KernelBlock
import Idealize.ShloMosaic.Lib.StableHlo.Run

set_option maxRecDepth 16384

noncomputable section

namespace Cert.NearestProto.Arr

open Cert.KernelIdeal Cert.KernelIdeal.Gen Idealize.ShloMosaic Idealize.ShloMosaic.TcCoe Idealize.SL.Sem
open Idealize.ShloMosaic.ValueIdx Cert.NearestProto Cert.NearestProto.Kern
open Idealize.ShloMosaic.Pipeline (Dat)

variable (m : (ℓ : Loc nD τ sig) → Buf (Elt Ideal) ℓ) (ρ : Dev nD → PrngReg)

/-- The two argument arrays as launched, and the two input blocks at a grid point, at their literal shapes. -/
abbrev zarr (c : Dev nD) : Vec Ideal S8192x512 .f32 := m ((c : Thread nD τ).loc main_arg0)
abbrev muarr (c : Dev nD) : Vec Ideal S1000x8x512 .f32 := m ((c : Thread nD τ).loc main_arg1)
abbrev zblk (c : Dev nD) (t : Fin cfg0.N) : Vec Ideal S512x512 .f32 := iblk m c 0 t
abbrev mublk (c : Dev nD) (t : Fin cfg0.N) : Vec Ideal S8x1000x512 .f32 := iblk m c 1 t

/-- The index maps over the grid: the latents and both results move one block of rows per point, the codebook stays. -/
theorem idx_facts : ∀ t : Fin cfg0.N, win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 16 := by
  have h := t.isLt
  have e : cfg0.N = 16 := N_0
  omega

/-- The row of the arrays that row `r` of point `t`'s block is. -/
def rowAt (t : Fin cfg0.N) (r : Fin 512) : Fin 8192 := ⟨t.val * 512 + r.val, by have := point_lt t; have := r.isLt; omega⟩

/-- The codebook as the region finds it: the host's transpose of the argument. -/
theorem codebookT (c : Dev nD) :
    (V m c main_v0 : S8x1000x512.Idx → EReal)
      = transpose S8x1000x512 [1, 0, 2] (muarr m c) transposes_S1000x8x512_S8x1000x512_1_0_2 := by
  dsimp only [Gen.V, Gen.hostOps0]
  after_results

/-- The latent block at point `t`: rows `512·t + r` of the argument. -/
theorem zblk_apply (c : Dev nD) (t : Fin cfg0.N) (r d : Fin 512) :
    zblk m c t (ix2 r d) = zarr m c (ix2 (rowAt t r) d) := by
  show V m c main_arg0 (((cfg0.win 0).blk t).view.emb (ix2 r d)) = _
  rw [V_main_arg0]
  show zarr m c _ = _
  congr 1
  funext a
  apply Fin.ext
  obtain ⟨e0, e1, -⟩ := idx_facts t
  match a with
  | ⟨0, _⟩ => show win0_0.index t (0 : Fin 2) * 512 + 1 * r.val = t.val * 512 + r.val; rw [e0]; omega
  | ⟨1, _⟩ => show win0_0.index t (1 : Fin 2) * 512 + 1 * d.val = d.val; rw [e1]; omega

/-- The codebook block at any point: the whole transposed codebook, slab `p` holding prototype `p` of every class. -/
theorem mublk_apply (c : Dev nD) (t : Fin cfg0.N) (p : Fin 8) (cc : Fin 1000) (d : Fin 512) :
    mublk m c t (ix3 p cc d) = muarr m c (ix3 cc p d) := by
  show V m c main_v0 (((cfg0.win 1).blk t).view.emb (ix3 p cc d)) = _
  obtain ⟨-, -, e0, e1, e2, -⟩ := idx_facts t
  have he : ((cfg0.win 1).blk t).view.emb (ix3 p cc d) = ix3 p cc d := funext fun a => Fin.ext (by
    match a with
    | ⟨0, _⟩ => show win0_1.index t (0 : Fin 3) * 8 + 1 * p.val = p.val; rw [e0]; omega
    | ⟨1, _⟩ => show win0_1.index t (1 : Fin 3) * 1000 + 1 * cc.val = cc.val; rw [e1]; omega
    | ⟨2, _⟩ => show win0_1.index t (2 : Fin 3) * 512 + 1 * d.val = d.val; rw [e2]; omega)
  rw [he, codebookT]
  exact transpose_apply _ _ _ (ix3 p cc d) (ix3 cc p d) fun b => match b with
    | ⟨0, _⟩ => rfl
    | ⟨1, _⟩ => rfl
    | ⟨2, _⟩ => rfl

/-- The block-level distance at point `t` is the array-level one at the block's row. -/
theorem blockDist_eq (c : Dev nD) (t : Fin cfg0.N) (r : Fin 512) (cc : Fin 1000) (p : Fin 8) :
    blockDist (zblk m c t) (mublk m c t) r cc p = dist (zarr m c) (muarr m c) (rowAt t r) cc p := by
  unfold blockDist dist sqZ cross sqMu
  simp only [zblk_apply, mublk_apply]

/-! ### The second result: the minimum -/

/-- Where an index of point `t`'s result block sits in the array. -/
theorem outEmb3 (t : Fin cfg0.N) (r : Fin 512) (cc : Fin 1000) :
    ((cfg0.win 3).blk t).view.emb (ix2 r cc) = ix2 (rowAt t r) cc := by
  obtain ⟨-, -, -, -, -, -, -, e0, e1⟩ := idx_facts t
  exact funext fun a => Fin.ext (by
    match a with
    | ⟨0, _⟩ => show win0_3.index t (0 : Fin 2) * 512 + 1 * r.val = t.val * 512 + r.val; rw [e0]; omega
    | ⟨1, _⟩ => show win0_3.index t (1 : Fin 2) * 1000 + 1 * cc.val = cc.val; rw [e1]; omega)

/-- What point `t` writes back to the second result is block `t` of the specification's minimum. -/
theorem flushedMin_eq (c : Dev nD) (t : Fin cfg0.N) :
    (dats m 0 c).flushed 3 t = ((cfg0.win 3).blk t).view.read (Elt Ideal) (minDist (zarr m c) (muarr m c)) := by
  rw [Value.flushed3]
  show (fun j : S512x1000.Idx => out0_3 (zblk m c t) (mublk m c t) j)
    = fun j : S512x1000.Idx => minDist (zarr m c) (muarr m c) (((cfg0.win 3).blk t).view.emb j)
  funext j
  obtain ⟨r, cc, rfl⟩ : ∃ (r : Fin 512) (cc : Fin 1000), j = ix2 r cc := ⟨j 0, j 1, eq_ix2 j⟩
  rw [minBlock_apply, outEmb3]
  show min8 (blockDist (zblk m c t) (mublk m c t) r cc) = min8 fun p => dist (zarr m c) (muarr m c) (rowAt t r) cc p
  exact congrArg min8 (funext fun p => blockDist_eq m c t r cc p)

theorem mem_blk3 (t : Fin cfg0.N) (i : S8192x1000.Idx) :
    i ∈ ((cfg0.win 3).blk t).view.set ↔ ∀ a : Fin 2, win0_3.index t a * S512x1000.size a ≤ (i a).val
      ∧ (i a).val < win0_3.index t a * S512x1000.size a + S512x1000.size a := by
  show i ∈ ((View.whole main_v1_1).slice (win0_3.rect t)).set ↔ _
  rw [View.set_slice_whole, Rect.mem_set_unit]
  exact Iff.rfl

/-- Every index of the second result lies in the block of the point its row belongs to. -/
theorem cover3 (i : S8192x1000.Idx) :
    ∃ t : Fin cfg0.N, (cfg0.win 3).flush t = true ∧ i ∈ ((cfg0.win 3).blk t).view.set := by
  have hi0 : (i 0).val < 8192 := (i 0).isLt
  have hi1 : (i 1).val < 1000 := (i 1).isLt
  have hN : cfg0.N = 16 := N_0
  let t : Fin cfg0.N := ⟨(i 0).val / 512, by omega⟩
  have ht : t.val = (i 0).val / 512 := rfl
  refine ⟨t, flush0_3 t, ?_⟩
  rw [mem_blk3]
  obtain ⟨-, -, -, -, -, -, -, e0, e1⟩ := idx_facts t
  intro a
  match a with
  | ⟨0, _⟩ =>
    show win0_3.index t (0 : Fin 2) * 512 ≤ (i 0).val ∧ (i 0).val < win0_3.index t (0 : Fin 2) * 512 + 512
    rw [e0, ht]; omega
  | ⟨1, _⟩ =>
    show win0_3.index t (1 : Fin 2) * 1000 ≤ (i 1).val ∧ (i 1).val < win0_3.index t (1 : Fin 2) * 1000 + 1000
    rw [e1]; omega

/-- The second result array after the run. -/
theorem finalMin (c : Dev nD) : (dats m 0 c).arrAt 3 cfg0.N = minDist (zarr m c) (muarr m c) :=
  (dats m 0 c).arrAt_eq_of_cover 3 (minDist (zarr m c) (muarr m c)) (fun t _ => flushedMin_eq m c t) cover3

/-! ### The first result: the negated minimum -/

theorem outEmb2 (t : Fin cfg0.N) (r : Fin 512) (cc : Fin 1000) :
    ((cfg0.win 2).blk t).view.emb (ix2 r cc) = ix2 (rowAt t r) cc := by
  obtain ⟨-, -, -, -, -, e0, e1, -⟩ := idx_facts t
  exact funext fun a => Fin.ext (by
    match a with
    | ⟨0, _⟩ => show win0_2.index t (0 : Fin 2) * 512 + 1 * r.val = t.val * 512 + r.val; rw [e0]; omega
    | ⟨1, _⟩ => show win0_2.index t (1 : Fin 2) * 1000 + 1 * cc.val = cc.val; rw [e1]; omega)

/-- What point `t` writes back to the first result is block `t` of the specification's negated minimum. -/
theorem flushedLogits_eq (c : Dev nD) (t : Fin cfg0.N) :
    (dats m 0 c).flushed 2 t = ((cfg0.win 2).blk t).view.read (Elt Ideal) (logits (zarr m c) (muarr m c)) := by
  rw [Value.flushed2]
  show (fun j : S512x1000.Idx => out0_2 (zblk m c t) (mublk m c t) j)
    = fun j : S512x1000.Idx => logits (zarr m c) (muarr m c) (((cfg0.win 2).blk t).view.emb j)
  funext j
  obtain ⟨r, cc, rfl⟩ : ∃ (r : Fin 512) (cc : Fin 1000), j = ix2 r cc := ⟨j 0, j 1, eq_ix2 j⟩
  rw [logitBlock_apply, outEmb2]
  show -min8 (blockDist (zblk m c t) (mublk m c t) r cc) = -min8 fun p => dist (zarr m c) (muarr m c) (rowAt t r) cc p
  exact congrArg (fun f => -min8 f) (funext fun p => blockDist_eq m c t r cc p)

theorem mem_blk2 (t : Fin cfg0.N) (i : S8192x1000.Idx) :
    i ∈ ((cfg0.win 2).blk t).view.set ↔ ∀ a : Fin 2, win0_2.index t a * S512x1000.size a ≤ (i a).val
      ∧ (i a).val < win0_2.index t a * S512x1000.size a + S512x1000.size a := by
  show i ∈ ((View.whole main_v1_0).slice (win0_2.rect t)).set ↔ _
  rw [View.set_slice_whole, Rect.mem_set_unit]
  exact Iff.rfl

theorem cover2 (i : S8192x1000.Idx) :
    ∃ t : Fin cfg0.N, (cfg0.win 2).flush t = true ∧ i ∈ ((cfg0.win 2).blk t).view.set := by
  have hi0 : (i 0).val < 8192 := (i 0).isLt
  have hi1 : (i 1).val < 1000 := (i 1).isLt
  have hN : cfg0.N = 16 := N_0
  let t : Fin cfg0.N := ⟨(i 0).val / 512, by omega⟩
  have ht : t.val = (i 0).val / 512 := rfl
  refine ⟨t, flush0_2 t, ?_⟩
  rw [mem_blk2]
  obtain ⟨-, -, -, -, -, e0, e1, -⟩ := idx_facts t
  intro a
  match a with
  | ⟨0, _⟩ =>
    show win0_2.index t (0 : Fin 2) * 512 ≤ (i 0).val ∧ (i 0).val < win0_2.index t (0 : Fin 2) * 512 + 512
    rw [e0, ht]; omega
  | ⟨1, _⟩ =>
    show win0_2.index t (1 : Fin 2) * 1000 ≤ (i 1).val ∧ (i 1).val < win0_2.index t (1 : Fin 2) * 1000 + 1000
    rw [e1]; omega

/-- The first result array after the run. -/
theorem finalLogits (c : Dev nD) : (dats m 0 c).arrAt 2 cfg0.N = logits (zarr m c) (muarr m c) :=
  (dats m 0 c).arrAt_eq_of_cover 2 (logits (zarr m c) (muarr m c)) (fun t _ => flushedLogits_eq m c t) cover2

/-! ### The kernel's run, read -/

/-- Every weakly fair execution of the idealized kernel ends with the two results at the specification's functions of
    the argument arrays, the arguments unchanged. -/
theorem run : θ_run defs (onTc (τ := τ) (main (F := Ideal))) ⟨m, fun _ => 0, ρ⟩ fun r => ∀ c : Dev nD,
      r.2.mem ((c : Thread nD τ).loc main_v1_0) = logits (zarr m c) (muarr m c)
      ∧ r.2.mem ((c : Thread nD τ).loc main_v1_1) = minDist (zarr m c) (muarr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (finalLogits m c), (h c).2.1.trans (finalMin m c),
      (h c).2.2.1, (h c).2.2.2⟩)
    (Value.run_blocks m ρ)

end Cert.NearestProto.Arr

end
-- ==== Proof.lean ====
/-
  Nearest-prototype distances: a Pallas kernel against its jnp reference, equal over the extended reals.

  Both programs compute, for 8192 latent rows `z_b` and 1000 classes of 8 prototypes `μ_{c,p}` in 512 features,
  `min_p ((‖z_b‖² − 2·⟨z_b, μ_{c,p}⟩) + ‖μ_{c,p}‖²)` and its negation.  The kernel walks 16 blocks of 512 rows with the
  transposed codebook resident, takes each cross term as a block matrix product into a zero accumulator (its operands
  passed through a format change that is the identity on the extended reals) and keeps a running minimum over the
  eight prototype slabs; the reference forms the `[8192, 1000, 8]` array of distances by one `dot_general` and folds
  `min` from `+∞` over the prototype axis.  The sums are the same sums term by term, the grouping of the three terms is
  the same, and a fold of `min` from `⊤` over eight values is their running minimum (`min` is the meet of a linear
  order), so no finiteness of the inputs is used; `0 − x = −x` gives the first result.

  Modules: `Spec` (the two results as functions of the argument arrays), `RefValue` (the reference's run is the
  specification), `KernelBlock` (what the body leaves in its output blocks, index by index), `ArrayValue` (the
  blocks tile the results: the kernel's run is the specification).
-/
import proofs.«127688_j47845935677591_1_alg».proof.Defs
import proofs.«127688_j47845935677591_1_alg».proof.Proof.Gen.Kernel
import proofs.«127688_j47845935677591_1_alg».proof.Proof.Gen.Kernel.Skeleton
import proofs.«127688_j47845935677591_1_alg».proof.Proof.Gen.Kernel.Launch
import proofs.«127688_j47845935677591_1_alg».proof.Proof.Gen.Kernel.Points
import proofs.«127688_j47845935677591_1_alg».proof.Proof.Gen.Kernel.Frame
import proofs.«127688_j47845935677591_1_alg».proof.Proof.Gen.KernelIdeal
import proofs.«127688_j47845935677591_1_alg».proof.Proof.Gen.KernelIdeal.Skeleton
import proofs.«127688_j47845935677591_1_alg».proof.Proof.Gen.KernelIdeal.Launch
import proofs.«127688_j47845935677591_1_alg».proof.Proof.Gen.KernelIdeal.Points
import proofs.«127688_j47845935677591_1_alg».proof.Proof.Gen.KernelIdeal.Frame
import proofs.«127688_j47845935677591_1_alg».proof.Proof.Gen.ReferenceIdeal
import proofs.«127688_j47845935677591_1_alg».proof.Proof.Gen.Pre_finite_inputs
import proofs.«127688_j47845935677591_1_alg».proof.Proof.Gen.KernelIdeal.Value
import proofs.«127688_j47845935677591_1_alg».proof.Proof.Gen.ReferenceIdeal.Run
import proofs.«127688_j47845935677591_1_alg».proof.Proof.Gen.ReferenceIdeal.Read
import proofs.«127688_j47845935677591_1_alg».proof.Proof.Spec
import proofs.«127688_j47845935677591_1_alg».proof.Proof.RefValue
import proofs.«127688_j47845935677591_1_alg».proof.Proof.KernelBlock
import proofs.«127688_j47845935677591_1_alg».proof.Proof.ArrayValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories agreeing on the arguments both idealized programs end with the negated minimum and the minimum of
    the expanded distances over the prototypes: the specification's two functions of the argument arrays. -/
theorem algebraic : Cert.algebraic_KernelIdeal_ReferenceIdeal := by
  intro m ρ m' ρ' _ hagree
  refine ⟨fun c => Cert.NearestProto.logits (Cert.NearestProto.Arr.zarr m c) (Cert.NearestProto.Arr.muarr m c),
    fun c => Cert.NearestProto.minDist (Cert.NearestProto.Arr.zarr m c) (Cert.NearestProto.Arr.muarr m c),
    Cert.NearestProto.Arr.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v14_eq, Cert.NearestProto.Ref.logits_eq, (hagree c).1, (hagree c).2]
  · rw [(h c).2.1, Cert.ReferenceIdeal.Read.val_main_v13_eq, Cert.NearestProto.Ref.minDist_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
